-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000000 : Shape := ⟨1, ![16000000]⟩
abbrev S97 : Shape := ⟨1, ![97]⟩
abbrev S2x16000000 : Shape := ⟨2, ![2, 16000000]⟩
abbrev S1000000 : Shape := ⟨1, ![1000000]⟩
abbrev S_ : Shape := ⟨0, ![]⟩

class Facts : Prop where
  bcast_S_S16000000 : S_.BroadcastsInDim S16000000 (![] : Fin 0 → Fin S16000000.rank)
  reducesTo_S16000000_S_d0 : S16000000.ReducesTo [0] S_
  h_S_ : 0 < S_.numel
  bcast_S_S97 : S_.BroadcastsInDim S97 (![] : Fin 0 → Fin S97.rank)
  reducesTo_S97_S_d0 : S97.ReducesTo [0] S_

variable [Facts]

def fn {F : FTy → Type} [FloatOps F] (main_arg0 : FVec F S16000000 .f32) (main_arg1 : FVec F S97 .f32) (main_arg2 : IVec S2x16000000 32) (main_arg3 : IVec S1000000 32) (main_arg4 : IVec S1000000 32) : IVec S_ 1 :=
  let main_v0 : FVec F S16000000 .f32 := Host.absf main_arg0
  let main_cst : FVec F S_ .f32 := constant S_ .f32 0x7F800000#32
  let main_v1 : FVec F S16000000 .f32 := broadcastInDim S16000000 ![] bcast_S_S16000000 main_cst
  let main_v2 : IVec S16000000 1 := cmpf .olt main_v0 main_v1
  let main_c : IVec S_ 1 := constantI S_ 1 1#1
  let main_v3 : IVec S_ 1 := (fun x v => Host.reduce IntOp.andi x v reducesTo_S16000000_S_d0 h_S_) main_v2 main_c
  let main_v4 : FVec F S97 .f32 := Host.absf main_arg1
  let main_cst_0 : FVec F S_ .f32 := constant S_ .f32 0x7F800000#32
  let main_v5 : FVec F S97 .f32 := broadcastInDim S97 ![] bcast_S_S97 main_cst_0
  let main_v6 : IVec S97 1 := cmpf .olt main_v4 main_v5
  let main_c_1 : IVec S_ 1 := constantI S_ 1 1#1
  let main_v7 : IVec S_ 1 := (fun x v => Host.reduce IntOp.andi x v reducesTo_S97_S_d0 h_S_) main_v6 main_c_1
  let main_v8 : IVec S_ 1 := andi main_v3 main_v7
  let main_cst_2 : FVec F S_ .f32 := constant S_ .f32 0x00000000#32
  let main_v9 : FVec F S16000000 .f32 := broadcastInDim S16000000 ![] bcast_S_S16000000 main_cst_2
  let main_v10 : IVec S16000000 1 := cmpf .ogt main_arg0 main_v9
  let main_c_3 : IVec S_ 1 := constantI S_ 1 1#1
  let main_v11 : IVec S_ 1 := (fun x v => Host.reduce IntOp.andi x v reducesTo_S16000000_S_d0 h_S_) main_v10 main_c_3
  let main_v12 : IVec S_ 1 := andi main_v8 main_v11
  main_v12
-- ==== Kernel.lean ====
abbrev S16000000 : Shape := ⟨1, ![16000000]⟩
abbrev S97 : Shape := ⟨1, ![97]⟩
abbrev S2x16000000 : Shape := ⟨2, ![2, 16000000]⟩
abbrev S1000000 : Shape := ⟨1, ![1000000]⟩
abbrev S1x16000000 : Shape := ⟨2, ![1, 16000000]⟩
abbrev S_ : Shape := ⟨0, ![]⟩
abbrev S1000000x1 : Shape := ⟨2, ![1000000, 1]⟩
abbrev S1000000x2 : Shape := ⟨2, ![1000000, 2]⟩
abbrev S16000000x1 : Shape := ⟨2, ![16000000, 1]⟩
abbrev S16000000x2 : Shape := ⟨2, ![16000000, 2]⟩
abbrev S125000x128 : Shape := ⟨2, ![125000, 128]⟩
abbrev S5000x128 : Shape := ⟨2, ![5000, 128]⟩
abbrev S10000 : Shape := ⟨1, ![10000]⟩
abbrev S10000x1 : Shape := ⟨2, ![10000, 1]⟩

abbrev nBuf : Space → Nat
  | .hbm => 81
  | .vmem => 10
  | .smem => 0
  | _ => 0

abbrev bufTy : (tb : Table) → Fin (tcTables nBuf tb) → BufTy
  | .hbm, ⟨0, _⟩ => ⟨S16000000, .f32⟩
  | .hbm, ⟨1, _⟩ => ⟨S97, .f32⟩
  | .hbm, ⟨2, _⟩ => ⟨S2x16000000, .i32⟩
  | .hbm, ⟨3, _⟩ => ⟨S1000000, .i32⟩
  | .hbm, ⟨4, _⟩ => ⟨S1000000, .i32⟩
  | .hbm, ⟨5, _⟩ => ⟨S1x16000000, .i32⟩
  | .hbm, ⟨6, _⟩ => ⟨S16000000, .i32⟩
  | .hbm, ⟨7, _⟩ => ⟨S1x16000000, .i32⟩
  | .hbm, ⟨8, _⟩ => ⟨S16000000, .i32⟩
  | .hbm, ⟨9, _⟩ => ⟨S1000000, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000, .f32⟩
  | .hbm, ⟨19, _⟩ => ⟨S1000000x1, .f32⟩
  | .hbm, ⟨20, _⟩ => ⟨S1000000x1, .f32⟩
  | .hbm, ⟨21, _⟩ => ⟨S1000000x2, .f32⟩
  | .hbm, ⟨22, _⟩ => ⟨S_, .i32⟩
  | .hbm, ⟨23, _⟩ => ⟨S16000000, .i32⟩
  | .hbm, ⟨24, _⟩ => ⟨S16000000, .i1⟩
  | .hbm, ⟨25, _⟩ => ⟨S_, .i32⟩
  | .hbm, ⟨26, _⟩ => ⟨S16000000, .i32⟩
  | .hbm, ⟨27, _⟩ => ⟨S16000000, .i32⟩
  | .hbm, ⟨28, _⟩ => ⟨S16000000, .i32⟩
  | .hbm, ⟨29, _⟩ => ⟨S16000000x1, .i32⟩
  | .hbm, ⟨30, _⟩ => ⟨S16000000x2, .f32⟩
  | .hbm, ⟨31, _⟩ => ⟨S_, .i32⟩
  | .hbm, ⟨32, _⟩ => ⟨S16000000, .i32⟩
  | .hbm, ⟨33, _⟩ => ⟨S16000000, .i1⟩
  | .hbm, ⟨34, _⟩ => ⟨S_, .i32⟩
  | .hbm, ⟨35, _⟩ => ⟨S16000000, .i32⟩
  | .hbm, ⟨36, _⟩ => ⟨S16000000, .i32⟩
  | .hbm, ⟨37, _⟩ => ⟨S16000000, .i32⟩
  | .hbm, ⟨38, _⟩ => ⟨S16000000x1, .i32⟩
  | .hbm, ⟨39, _⟩ => ⟨S16000000x2, .f32⟩
  | .hbm, ⟨40, _⟩ => ⟨S_, .i32⟩
  | .hbm, ⟨41, _⟩ => ⟨S16000000, .i32⟩
  | .hbm, ⟨42, _⟩ => ⟨S16000000, .i1⟩
  | .hbm, ⟨43, _⟩ => ⟨S_, .i32⟩
  | .hbm, ⟨44, _⟩ => ⟨S16000000, .i32⟩
  | .hbm, ⟨45, _⟩ => ⟨S16000000, .i32⟩
  | .hbm, ⟨46, _⟩ => ⟨S16000000, .i32⟩
  | .hbm, ⟨47, _⟩ => ⟨S16000000x1, .i32⟩
  | .hbm, ⟨48, _⟩ => ⟨S16000000, .i32⟩
  | .hbm, ⟨49, _⟩ => ⟨S16000000x1, .f32⟩
  | .hbm, ⟨50, _⟩ => ⟨S16000000, .f32⟩
  | .hbm, ⟨51, _⟩ => ⟨S16000000x1, .f32⟩
  | .hbm, ⟨52, _⟩ => ⟨S16000000, .f32⟩
  | .hbm, ⟨53, _⟩ => ⟨S16000000x1, .f32⟩
  | .hbm, ⟨54, _⟩ => ⟨S16000000, .f32⟩
  | .hbm, ⟨55, _⟩ => ⟨S16000000x1, .f32⟩
  | .hbm, ⟨56, _⟩ => ⟨S16000000, .f32⟩
  | .hbm, ⟨57, _⟩ => ⟨S16000000, .i1⟩
  | .hbm, ⟨58, _⟩ => ⟨S_, .f32⟩
  | .hbm, ⟨59, _⟩ => ⟨S16000000, .f32⟩
  | .hbm, ⟨60, _⟩ => ⟨S16000000, .f32⟩
  | .hbm, ⟨61, _⟩ => ⟨S_, .f32⟩
  | .hbm, ⟨62, _⟩ => ⟨S16000000, .f32⟩
  | .hbm, ⟨63, _⟩ => ⟨S16000000, .f32⟩
  | .hbm, ⟨64, _⟩ => ⟨S16000000, .f32⟩
  | .hbm, ⟨65, _⟩ => ⟨S_, .f32⟩
  | .hbm, ⟨66, _⟩ => ⟨S16000000, .f32⟩
  | .hbm, ⟨67, _⟩ => ⟨S16000000, .f32⟩
  | .hbm, ⟨68, _⟩ => ⟨S16000000, .f32⟩
  | .hbm, ⟨69, _⟩ => ⟨S16000000, .f32⟩
  | .hbm, ⟨70, _⟩ => ⟨S125000x128, .f32⟩
  | .hbm, ⟨71, _⟩ => ⟨S125000x128, .f32⟩
  | .hbm, ⟨72, _⟩ => ⟨S125000x128, .f32⟩
  | .hbm, ⟨73, _⟩ => ⟨S125000x128, .f32⟩
  | .hbm, ⟨74, _⟩ => ⟨S125000x128, .f32⟩
  | .hbm, ⟨75, _⟩ => ⟨S16000000, .f32⟩
  | .hbm, ⟨76, _⟩ => ⟨S_, .f32⟩
  | .hbm, ⟨77, _⟩ => ⟨S10000, .f32⟩
  | .hbm, ⟨78, _⟩ => ⟨S16000000x1, .i32⟩
  | .hbm, ⟨79, _⟩ => ⟨S10000, .f32⟩
  | .hbm, ⟨80, _⟩ => ⟨S10000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | _, _ => ⟨S16000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S16000000 : S_.BroadcastsInDim S16000000 (![] : Fin 0 → Fin S16000000.rank)
  bcast_S16000000_S16000000x1_0 : S16000000.BroadcastsInDim S16000000x1 (![0] : Fin 1 → Fin S16000000x1.rank)
  slices_S16000000x2_S16000000x1_0_0 : S16000000x2.Slices ![0, 0] S16000000x1
  shapeCasts_S16000000x1_S16000000 : S16000000x1.ShapeCasts S16000000
  slices_S16000000x2_S16000000x1_0_1 : S16000000x2.Slices ![0, 1] S16000000x1
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  bcast_S_S10000 : S_.BroadcastsInDim S10000 (![] : Fin 0 → Fin S10000.rank)
  shapeCasts_S10000_S10000x1 : S10000.ShapeCasts S10000x1
  gather_S97_S1000000x1_S1000000_n_0_n_n_0_1_1_wf : GatherDims.WF S97 S1000000x1 S1000000 [] [0] [] [0] [] 1 ![1]
  gather_S1000000x2_S16000000x1_S16000000x2_1_0_n_n_0_1_12_wf : GatherDims.WF S1000000x2 S16000000x1 S16000000x2 [1] [0] [] [0] [] 1 ![1, 2]
  gather_S1000000_S16000000x1_S16000000_n_0_n_n_0_1_1_wf : GatherDims.WF S1000000 S16000000x1 S16000000 [] [0] [] [0] [] 1 ![1]
  scatter_S10000_S16000000x1_S16000000_n_0_0_1_wf : ScatterDims.WF S10000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S125000x128.size a
  hwx0_4 : ∀ i : grid0.Coords, EltTy.bits .f32 = 32 ∨ (Rect.block (s := S125000x128) S5000x128.size (cc0_transform_4 i) (hinb0_4 i)).WholeWords (EltTy.packing .f32)

variable [Facts₀]

def gather_S97_S1000000x1_S1000000_n_0_n_n_0_1_1 : GatherDims S97 S1000000x1 S1000000 where
  offsetDims := []
  collapsedSliceDims := [0]
  operandBatchingDims := []
  startIndicesBatchingDims := []
  startIndexMap := [0]
  indexVectorDim := 1
  sliceSizes := ![1]
  wf := gather_S97_S1000000x1_S1000000_n_0_n_n_0_1_1_wf
def gather_S1000000x2_S16000000x1_S16000000x2_1_0_n_n_0_1_12 : GatherDims S1000000x2 S16000000x1 S16000000x2 where
  offsetDims := [1]
  collapsedSliceDims := [0]
  operandBatchingDims := []
  startIndicesBatchingDims := []
  startIndexMap := [0]
  indexVectorDim := 1
  sliceSizes := ![1, 2]
  wf := gather_S1000000x2_S16000000x1_S16000000x2_1_0_n_n_0_1_12_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def scatter_S10000_S16000000x1_S16000000_n_0_0_1 : ScatterDims S10000 S16000000x1 S16000000 where
  updateWindowDims := []
  insertedWindowDims := [0]
  scatterDimsToOperandDims := [0]
  indexVectorDim := 1
  wf := scatter_S10000_S16000000x1_S16000000_n_0_0_1_wf

abbrev win0_0 : Pipeline.Window sig grid0 :=
  Pipeline.Window.ofSpec (Memref.whole main_v54) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v58) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16000000 : Shape := ⟨1, ![16000000]⟩
abbrev S97 : Shape := ⟨1, ![97]⟩
abbrev S2x16000000 : Shape := ⟨2, ![2, 16000000]⟩
abbrev S1000000 : Shape := ⟨1, ![1000000]⟩
abbrev S1x16000000 : Shape := ⟨2, ![1, 16000000]⟩
abbrev S_ : Shape := ⟨0, ![]⟩
abbrev S16000000x1 : Shape := ⟨2, ![16000000, 1]⟩
abbrev S10000 : Shape := ⟨1, ![10000]⟩
abbrev S10000x1 : Shape := ⟨2, ![10000, 1]⟩

abbrev nBuf : Space → Nat
  | .hbm => 132
  | .vmem => 0
  | .smem => 0
  | _ => 0

abbrev hbmTy0_0 (i : Nat) : BufTy := match i % 128 with
  | 0 => ⟨S16000000, .f32⟩
  | 1 => ⟨S97, .f32⟩
  | 2 => ⟨S2x16000000, .i32⟩
  | 3 => ⟨S1000000, .i32⟩
  | 4 => ⟨S1000000, .i32⟩
  | 5 => ⟨S1x16000000, .i32⟩
  | 6 => ⟨S16000000, .i32⟩
  | 7 => ⟨S1x16000000, .i32⟩
  | 8 => ⟨S16000000, .i32⟩
  | 9 => ⟨S16000000, .i1⟩
  | 10 => ⟨S_, .i32⟩
  | 11 => ⟨S16000000, .i32⟩
  | 12 => ⟨S16000000, .i1⟩
  | 13 => ⟨S_, .i32⟩
  | 14 => ⟨S16000000, .i32⟩
  | 15 => ⟨S16000000, .i32⟩
  | 16 => ⟨S16000000, .i32⟩
  | 17 => ⟨S16000000x1, .i32⟩
  | 18 => ⟨S16000000, .i32⟩
  | 19 => ⟨S_, .i32⟩
  | 20 => ⟨S16000000, .i32⟩
  | 21 => ⟨S16000000, .i1⟩
  | 22 => ⟨S_, .i32⟩
  | 23 => ⟨S16000000, .i32⟩
  | 24 => ⟨S16000000, .i32⟩
  | 25 => ⟨S16000000, .i32⟩
  | 26 => ⟨S16000000x1, .i32⟩
  | 27 => ⟨S16000000, .i32⟩
  | 28 => ⟨S16000000, .f32⟩
  | 29 => ⟨S16000000, .f32⟩
  | 30 => ⟨S_, .i32⟩
  | 31 => ⟨S16000000, .i32⟩
  | 32 => ⟨S16000000, .i1⟩
  | 33 => ⟨S_, .i32⟩
  | 34 => ⟨S16000000, .i32⟩
  | 35 => ⟨S16000000, .i32⟩
  | 36 => ⟨S16000000, .i32⟩
  | 37 => ⟨S16000000x1, .i32⟩
  | 38 => ⟨S16000000, .f32⟩
  | 39 => ⟨S_, .i32⟩
  | 40 => ⟨S16000000, .i32⟩
  | 41 => ⟨S16000000, .i1⟩
  | 42 => ⟨S_, .i32⟩
  | 43 => ⟨S16000000, .i32⟩
  | 44 => ⟨S16000000, .i32⟩
  | 45 => ⟨S16000000, .i32⟩
  | 46 => ⟨S16000000x1, .i32⟩
  | 47 => ⟨S16000000, .f32⟩
  | 48 => ⟨S_, .f32⟩
  | 49 => ⟨S16000000, .f32⟩
  | 50 => ⟨S16000000, .f32⟩
  | 51 => ⟨S_, .f32⟩
  | 52 => ⟨S16000000, .f32⟩
  | 53 => ⟨S16000000, .f32⟩
  | 54 => ⟨S16000000, .f32⟩
  | 55 => ⟨S_, .f32⟩
  | 56 => ⟨S16000000, .f32⟩
  | 57 => ⟨S16000000, .f32⟩
  | 58 => ⟨S16000000, .f32⟩
  | 59 => ⟨S_, .f32⟩
  | 60 => ⟨S16000000, .f32⟩
  | 61 => ⟨S16000000, .f32⟩
  | 62 => ⟨S16000000, .f32⟩
  | 63 => ⟨S_, .f32⟩
  | 64 => ⟨S16000000, .f32⟩
  | 65 => ⟨S16000000, .f32⟩
  | 66 => ⟨S_, .f32⟩
  | 67 => ⟨S16000000, .f32⟩
  | 68 => ⟨S16000000, .f32⟩
  | 69 => ⟨S16000000, .f32⟩
  | 70 => ⟨S_, .f32⟩
  | 71 => ⟨S16000000, .f32⟩
  | 72 => ⟨S16000000, .f32⟩
  | 73 => ⟨S16000000, .f32⟩
  | 74 => ⟨S_, .f32⟩
  | 75 => ⟨S16000000, .f32⟩
  | 76 => ⟨S16000000, .f32⟩
  | 77 => ⟨S16000000, .f32⟩
  | 78 => ⟨S_, .f32⟩
  | 79 => ⟨S16000000, .f32⟩
  | 80 => ⟨S16000000, .f32⟩
  | 81 => ⟨S16000000, .f32⟩
  | 82 => ⟨S_, .f32⟩
  | 83 => ⟨S16000000, .f32⟩
  | 84 => ⟨S16000000, .f32⟩
  | 85 => ⟨S16000000, .f32⟩
  | 86 => ⟨S_, .f32⟩
  | 87 => ⟨S16000000, .f32⟩
  | 88 => ⟨S16000000, .f32⟩
  | 89 => ⟨S16000000, .f32⟩
  | 90 => ⟨S16000000, .f32⟩
  | 91 => ⟨S16000000, .i1⟩
  | 92 => ⟨S_, .f32⟩
  | 93 => ⟨S16000000, .f32⟩
  | 94 => ⟨S16000000, .f32⟩
  | 95 => ⟨S16000000, .f32⟩
  | 96 => ⟨S16000000, .f32⟩
  | 97 => ⟨S_, .f32⟩
  | 98 => ⟨S16000000, .f32⟩
  | 99 => ⟨S16000000, .f32⟩
  | 100 => ⟨S_, .f32⟩
  | 101 => ⟨S16000000, .f32⟩
  | 102 => ⟨S16000000, .f32⟩
  | 103 => ⟨S_, .f32⟩
  | 104 => ⟨S_, .f32⟩
  | 105 => ⟨S16000000, .f32⟩
  | 106 => ⟨S16000000, .f32⟩
  | 107 => ⟨S16000000, .f32⟩
  | 108 => ⟨S_, .f32⟩
  | 109 => ⟨S16000000, .f32⟩
  | 110 => ⟨S16000000, .f32⟩
  | 111 => ⟨S16000000, .f32⟩
  | 112 => ⟨S16000000, .f32⟩
  | 113 => ⟨S16000000, .f32⟩
  | 114 => ⟨S_, .f32⟩
  | 115 => ⟨S_, .f32⟩
  | 116 => ⟨S16000000, .f32⟩
  | 117 => ⟨S16000000, .f32⟩
  | 118 => ⟨S_, .i32⟩
  | 119 => ⟨S16000000, .i32⟩
  | 120 => ⟨S16000000, .i1⟩
  | 121 => ⟨S_, .i32⟩
  | 122 => ⟨S16000000, .i32⟩
  | 123 => ⟨S16000000, .i32⟩
  | 124 => ⟨S16000000, .i32⟩
  | 125 => ⟨S16000000x1, .i32⟩
  | 126 => ⟨S16000000, .i32⟩
  | 127 => ⟨S_, .f32⟩
  | _ => ⟨S16000000, .f32⟩

abbrev hbmTy0_1 (i : Nat) : BufTy := match i % 128 with
  | 0 => ⟨S10000, .f32⟩
  | 1 => ⟨S16000000x1, .i32⟩
  | 2 => ⟨S10000, .f32⟩
  | 3 => ⟨S10000x1, .f32⟩
  | _ => ⟨S16000000, .f32⟩

abbrev hbmTy (i : Nat) : BufTy := match i / 128 with
  | 0 => hbmTy0_0 i
  | 1 => hbmTy0_1 i
  | _ => ⟨S16000000, .f32⟩

abbrev bufTy : (tb : Table) → Fin (tcTables nBuf tb) → BufTy
  | .hbm, ⟨i, _⟩ => hbmTy i
  | _, _ => ⟨S16000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_cst_20 : Ref sig .tc := ⟨.hbm, 103, rfl⟩
abbrev main_call0_v0 : Ref sig .tc := ⟨.hbm, 104, rfl⟩
abbrev main_call0_v1 : Ref sig .tc := ⟨.hbm, 105, rfl⟩
abbrev main_v76 : Ref sig .tc := ⟨.hbm, 106, rfl⟩
abbrev main_v77 : Ref sig .tc := ⟨.hbm, 107, rfl⟩
abbrev main_cst_21 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_call1_v0 : Ref sig .tc := ⟨.hbm, 115, rfl⟩
abbrev main_call1_v1 : Ref sig .tc := ⟨.hbm, 116, rfl⟩
abbrev main_v83 : Ref sig .tc := ⟨.hbm, 117, rfl⟩
abbrev main_c_23 : Ref sig .tc := ⟨.hbm, 118, rfl⟩
abbrev main_v84 : Ref sig .tc := ⟨.hbm, 119, rfl⟩
abbrev main_v85 : Ref sig .tc := ⟨.hbm, 120, rfl⟩
abbrev main_c_24 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S10000 : S_.BroadcastsInDim S10000 (![] : Fin 0 → Fin S10000.rank)
  shapeCasts_S10000_S10000x1 : S10000.ShapeCasts S10000x1
  gather_S1000000_S16000000x1_S16000000_n_0_n_n_0_1_1_wf : GatherDims.WF S1000000 S16000000x1 S16000000 [] [0] [] [0] [] 1 ![1]
  gather_S97_S16000000x1_S16000000_n_0_n_n_0_1_1_wf : GatherDims.WF S97 S16000000x1 S16000000 [] [0] [] [0] [] 1 ![1]
  scatter_S10000_S16000000x1_S16000000_n_0_0_1_wf : ScatterDims.WF S10000 S16000000x1 S16000000 [] [0] [0] 1

variable [Facts₀]

def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S97_S16000000x1_S16000000_n_0_n_n_0_1_1 : GatherDims S97 S16000000x1 S16000000 where
  offsetDims := []
  collapsedSliceDims := [0]
  operandBatchingDims := []
  startIndicesBatchingDims := []
  startIndexMap := [0]
  indexVectorDim := 1
  sliceSizes := ![1]
  wf := gather_S97_S16000000x1_S16000000_n_0_n_n_0_1_1_wf
def scatter_S10000_S16000000x1_S16000000_n_0_0_1 : ScatterDims S10000 S16000000x1 S16000000 where
  updateWindowDims := []
  insertedWindowDims := [0]
  scatterDimsToOperandDims := [0]
  indexVectorDim := 1
  wf := scatter_S10000_S16000000x1_S16000000_n_0_0_1_wf

class Facts : Prop extends Facts₀ where

variable [Facts]
-- ==== Proof.PreDecode.lean ====
/-
  What the precondition says of the distances: every one is a positive real, so none is zero.

  The precondition is the conjunction (an `and` of three all-reductions) of: every distance finite, every radius
  finite, every distance greater than zero. Only the last conjunct is opened.
-/
import proofs.«405888_j79860621902322_3_alg».proof.Pre_finite_inputs
import proofs.«405888_j79860621902322_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic Idealize.ShloMosaic.ValueIdx

/-- Under the precondition no distance is zero. -/
theorem dist_ne_zero (a0 : FVec Ideal S16000000 .f32) (a1 : FVec Ideal S97 .f32) (a2 : IVec S2x16000000 32)
    (a3 a4 : IVec S1000000 32)
    (h : Cert.Pre_finite_inputs.fn (F := Ideal) a0 a1 a2 a3 a4 = (fun _ => 1#1)) :
    ∀ e : S16000000.Idx, a0 e ≠ 0 := by
  intro e
  -- the result has no axes: one index only
  haveI : Subsingleton S_.Idx := ⟨fun a b => funext fun d => d.elim0⟩
  have h0 := congrFun h (fun d => d.elim0)
  dsimp only [fn] at h0
  -- the last conjunct: every distance compares greater than zero
  obtain ⟨_, h3⟩ := IntOp.andi_eq_one.1 h0
  have he := Host.reduce_andi_all _ _ _ _ _ h3 e
  have hc : Ideal.cmp .ogt (a0 e) 0 = 1#1 := by
    rw [← Ideal.ofBits_zero_f32]; exact he
  -- the comparison is the order's: it is 1 only when 0 < a0 e
  have hpos : (0 : EReal) < a0 e := by
    by_contra hn
    have hz : Ideal.cmp .ogt (a0 e) 0 = 0#1 := by
      show BitVec.ofBool (decide ((0 : EReal) < a0 e)) = 0#1
      rw [decide_eq_false hn]; rfl
    rw [hz] at hc
    exact absurd hc (by decide)
  exact hpos.ne'

end Cert.Pre_finite_inputs.Decode

end
-- ==== Proof.ZblSpec.lean ====
/-
  The ZBL pair potential summed per system, as plain mathematics on the extended reals.

  An edge `e` of the pair list joins atoms `i = p[0, e]` and `j = p[1, e]` (a negative position wraps once by
  the table's length, then clamps into the table). Its energy is

      E(e) = f(d / a) · φ(d, r_i + r_j) · C · z_i · z_j / d        when i < j,      0 otherwise,

  with `a = A / (z_i^0.23 + z_j^0.23)`, `f` a sum of four exponentials and `φ` the cosine cut-off below
  `r_i + r_j`. The result adds `E(e)` into the system of atom `i`.

  Two arrangements of `E(e)` are compared here. One multiplies the prefactor by `z_i`, then by `z_j`, divides
  by `d` and only then drops the edge when `i ≥ j`. The other folds the test into the charge product
  (`z_i` replaced by `0` when `i ≥ j`) and divides last. They agree wherever `d ≠ 0`: the product of extended
  reals is associative and `0` absorbs, and `0 / d = 0` off `d = 0` (at `d = 0` the second form is `0 / 0`).
-/
import Idealize.ShloMosaic.PureOps.Ideal
import Idealize.ShloMosaic.PureOps.Ideal.Laws
import Idealize.ShloMosaic.Lib.ValueIdx

noncomputable section

namespace Cert.Zbl

open Idealize.ShloMosaic Idealize.ShloMosaic.ValueIdx

/-! ## Shapes -/

abbrev SE : Shape := ⟨1, ![16000000]⟩
abbrev SA : Shape := ⟨1, ![1000000]⟩
abbrev ST : Shape := ⟨1, ![97]⟩
abbrev SP : Shape := ⟨2, ![2, 16000000]⟩
abbrev SE1 : Shape := ⟨2, ![16000000, 1]⟩
abbrev SY : Shape := ⟨1, ![10000]⟩
abbrev SY1 : Shape := ⟨2, ![10000, 1]⟩
abbrev S0 : Shape := ⟨0, ![]⟩

/-! ## Positions -/

/-- A negative position counts from the end: it wraps once by the length `N`. -/
def wrap (N b : BitVec 32) : BitVec 32 := Scalar.select (IntOp.cmpi .slt b 0#32) (IntOp.addi b N) b

/-- A position read signed and clamped into a table of length `N`. -/
def clampIx (N : Nat) (hN : 0 < N) (b : BitVec 32) : (⟨1, ![N]⟩ : Shape).Idx :=
  ix1 ⟨min b.toInt.toNat (N - 1), by omega⟩

/-- The atom a pair-list entry `b` names. -/
def atom (b : BitVec 32) : SA.Idx := clampIx 1000000 (by decide) (wrap 1000000#32 b)

/-- The two ends of edge `e`. -/
def endI (p : IVec SP 32) (e : SE.Idx) : BitVec 32 := p (ix2 (0 : Fin 2) (e 0))
def endJ (p : IVec SP 32) (e : SE.Idx) : BitVec 32 := p (ix2 (1 : Fin 2) (e 0))

/-- The atomic number of the atom `b` names, as an extended real. -/
def zAt (a3 : IVec SA 32) (b : BitVec 32) : EReal := FloatOps.sitofp (F := Ideal) .f32 (a3 (atom b))

/-- The radius of the atom `b` names: the table at its atomic number (wrapped and clamped into the table). -/
def rAt (a1 : FVec Ideal ST .f32) (a3 : IVec SA 32) (b : BitVec 32) : EReal :=
  a1 (clampIx 97 (by decide) (wrap 97#32 (a3 (atom b))))

/-- The system of the atom `b` names. -/
def sysAt (a4 : IVec SA 32) (b : BitVec 32) : BitVec 32 := a4 (atom b)

/-! ## One edge -/

/-- The value an f32 word denotes. -/
abbrev cW (w : BitVec 32) : EReal := Ideal.ofBits .f32 w

/-- The screened distance `d / (A / s)`, `s` the sum of the 0.23-powers of the two atomic numbers. -/
def screened (d s : EReal) : EReal := Ideal.div d (Ideal.div (cW 0x3D3FE94C#32) s)

/-- The screening function: four exponentials of the screened distance. -/
def fsum (x : EReal) : EReal :=
  ((cW 0x3E3A29C7#32 * Ideal.exp (cW 0xC04CCCCD#32 * x) + cW 0x3F0288CE#32 * Ideal.exp (cW 0xBF713A93#32 * x))
      + cW 0x3E8F7660#32 * Ideal.exp (cW 0xBECE48E9#32 * x))
    + cW 0x3CE6C4C6#32 * Ideal.exp (cW 0xBE4E703B#32 * x)

/-- The cosine cut-off: `(cos (π d / r) + 1) / 2` below the radius sum `r`, zero from there on. -/
def cutoff (d r : EReal) : EReal :=
  Scalar.select (Ideal.cmp .olt d r)
    (cW 0x3F000000#32 * (Ideal.cos (Ideal.div (cW 0x40490FDB#32 * d) r) + cW 0x3F800000#32)) (cW 0x00000000#32)

/-- Screening times cut-off times the Coulomb constant. -/
def prefactor (d s r : EReal) : EReal := (fsum (screened d s) * cutoff d r) * cW 0x430AEF7A#32

/-- The sum of the 0.23-powers of two atomic numbers. -/
def zpow (zi zj : EReal) : EReal := Ideal.pow zi (cW 0x3E6B851F#32) + Ideal.pow zj (cW 0x3E6B851F#32)

/-- An edge's energy with the test `i < j` applied LAST, after the division by the distance. -/
def edgeLate (m : BitVec 1) (d zi zj ri rj : EReal) : EReal :=
  Scalar.select m (Ideal.div ((prefactor d (zpow zi zj) (ri + rj) * zi) * zj) d) (cW 0x00000000#32)

/-- An edge's energy with the test folded into the charge product: `s` the power sum, `q` the (masked) product of
    the atomic numbers, `r` the radius sum. -/
def edgeFolded (d s q r : EReal) : EReal := Ideal.div (prefactor d s r * q) d

/-- The masked charge product. -/
def qMasked (m : BitVec 1) (zi zj : EReal) : EReal := Scalar.select m zi (cW 0x00000000#32) * zj

/-- Off `d = 0` the two arrangements agree: where `i < j` by associativity of the product, elsewhere because
    `0` absorbs in the product and `0 / d = 0`. -/
theorem edgeFolded_eq_edgeLate (m : BitVec 1) (d zi zj ri rj : EReal) (hd : d ≠ 0) :
    edgeFolded d (zpow zi zj) (qMasked m zi zj) (ri + rj) = edgeLate m d zi zj ri rj := by
  unfold edgeFolded edgeLate qMasked
  rcases BitVec.eq_zero_or_eq_one m with h | h
  · subst h
    have hz : cW 0x00000000#32 = 0 := Ideal.ofBits_zero_f32
    rw [ValueIdx.select_zero, ValueIdx.select_zero, hz, zero_mul, mul_zero]
    unfold Ideal.div
    rw [if_neg hd, zero_mul]
  · subst h
    rw [ValueIdx.select_one, ValueIdx.select_one, mul_assoc]

/-! ## The arrays -/

/-- Edge `e`'s energy from the arguments: distances `a0`, radii table `a1`, pair list `p`, atomic numbers `a3`. -/
def edge (a0 : FVec Ideal SE .f32) (a1 : FVec Ideal ST .f32) (p : IVec SP 32) (a3 : IVec SA 32) (e : SE.Idx) : EReal :=
  edgeLate (IntOp.cmpi .slt (endI p e) (endJ p e)) (a0 e) (zAt a3 (endI p e)) (zAt a3 (endJ p e))
    (rAt a1 a3 (endI p e)) (rAt a1 a3 (endJ p e))

/-- The same with the test folded into the charge product. -/
def edgeF (a0 : FVec Ideal SE .f32) (a1 : FVec Ideal ST .f32) (p : IVec SP 32) (a3 : IVec SA 32) (e : SE.Idx) : EReal :=
  edgeFolded (a0 e) (zpow (zAt a3 (endI p e)) (zAt a3 (endJ p e)))
    (qMasked (IntOp.cmpi .slt (endI p e) (endJ p e)) (zAt a3 (endI p e)) (zAt a3 (endJ p e)))
    (rAt a1 a3 (endI p e) + rAt a1 a3 (endJ p e))

/-- With no zero distance the two energy arrays are one. -/
theorem edgeF_eq_edge (a0 : FVec Ideal SE .f32) (a1 : FVec Ideal ST .f32) (p : IVec SP 32) (a3 : IVec SA 32)
    (h0 : ∀ e, a0 e ≠ 0) : edgeF a0 a1 p a3 = edge a0 a1 p a3 :=
  funext fun e => edgeFolded_eq_edgeLate _ _ _ _ _ _ (h0 e)

/-- Edge `e`'s system: that of its first end. -/
def sys (p : IVec SP 32) (a4 : IVec SA 32) : IVec SE 32 := fun e => sysAt a4 (endI p e)

/-- The per-system sums as a column: every edge's energy added into its system's entry of a zero vector. -/
def perSystem (d : ScatterDims SY SE1 SE) (hz : S0.BroadcastsInDim SY (![] : Fin 0 → Fin SY.rank))
    (hs : SE.BroadcastsInDim SE1 (![0] : Fin 1 → Fin SE1.rank)) (hc : SY.ShapeCasts SY1)
    (s : IVec SE 32) (en : FVec Ideal SE .f32) : FVec Ideal SY1 .f32 :=
  shapeCast SY1 (Host.scatterAdd d (broadcastInDim SY ![] hz (constant (F := Ideal) S0 .f32 0x00000000#32))
    (broadcastInDim SE1 ![0] hs s) en) hc

end Cert.Zbl

end
-- ==== Proof.KernelBlocks.lean ====
/-
  The region's output array as one function of the four arrays it is launched on.

  The grid has 25 points; point `t` stages rows `5000 t … 5000 t + 4999` of each [125000, 128] array (every window
  moves alike) and the body computes, element by element, the folded form of the edge energy
  (`Zbl.edgeFolded`: distance, power sum, masked charge product, radius sum). The 25 blocks tile the array, so it
  ends holding that function of the launched arrays at every index.
-/
import proofs.«405888_j79860621902322_3_alg».proof.Proof.Gen.KernelIdeal.Frame
import proofs.«405888_j79860621902322_3_alg».proof.Proof.ZblSpec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.Pipeline Idealize.ShloMosaic.ValueIdx

variable (m : (ℓ : Loc nD τ sig) → Buf (Elt Ideal) ℓ)

theorem hz : (![0, 0] : Fin 2 → Nat) = fun _ => 0 := funext fun a => by fin_cases a <;> rfl

/-- The folded edge energy of four arrays, index by index. -/
abbrev G (a0 a1 a2 a3 : S125000x128.Idx → Elt Ideal .f32) : S125000x128.Idx → Elt Ideal .f32 :=
  fun i => Cert.Zbl.edgeFolded (a0 i) (a1 i) (a2 i) (a3 i)

/-- The body's stored value is the folded edge energy of its four loaded blocks, element by element. -/
theorem pay_eq (x0 x1 x2 x3 : Vec Ideal S5000x128 .f32) :
    k0_pay1 (k0_pay2 x0) (k0_pay3 x2) (k0_pay4 x3) (k0_pay5 x0 x1) (k0_pay6 x0 x3)
      = fun y => Cert.Zbl.edgeFolded (x0 y) (x1 y) (x2 y) (x3 y) := by
  simp only [k0_pay1, k0_pay2, k0_pay3, k0_pay4, k0_pay5, k0_pay6, shapeCast_self]
  rfl

/-- Every window's block index at point `t` is `(t, 0)`. -/
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Over ANY four arrays: the folded energy of the four input blocks at point `t` is block `t` of the folded energy
    of the arrays (all five windows stage the same rows). -/
theorem blockwise (t : Fin cfg0.N) (A0 A1 A2 A3 : S125000x128.Idx → Elt Ideal .f32) :
    ((cfg0.win 4).cut (grid0.coords t) fun y =>
        Cert.Zbl.edgeFolded (((cfg0.win 0).blk t).view.read (Elt Ideal) A0 y) (((cfg0.win 1).blk t).view.read (Elt Ideal) A1 y)
          (((cfg0.win 2).blk t).view.read (Elt Ideal) A2 y) (((cfg0.win 3).blk t).view.read (Elt Ideal) A3 y))
      = ((cfg0.win 4).blk t).view.read (Elt Ideal) (G A0 A1 A2 A3) := by
  obtain ⟨e0, e1⟩ := idx4 t
  obtain ⟨e2, e3⟩ := idx0 t
  obtain ⟨e4, e5⟩ := idx1 t
  obtain ⟨e6, e7⟩ := idx2 t
  obtain ⟨e8, e9⟩ := idx3 t
  funext j
  show Cert.Zbl.edgeFolded (A0 (((cfg0.win 0).blk t).view.emb j)) (A1 (((cfg0.win 1).blk t).view.emb j))
      (A2 (((cfg0.win 2).blk t).view.emb j)) (A3 (((cfg0.win 3).blk t).view.emb j))
    = Cert.Zbl.edgeFolded (A0 (((cfg0.win 4).blk t).view.emb j)) (A1 (((cfg0.win 4).blk t).view.emb j))
      (A2 (((cfg0.win 4).blk t).view.emb j)) (A3 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 128 + 1 * (j 1).val = win0_4.index t (1 : Fin 2) * 128 + 1 * (j 1).val; omega
  have h3 : ((cfg0.win 3).blk t).view.emb j = ((cfg0.win 4).blk t).view.emb j := by
    funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 128 + 1 * (j 1).val = win0_4.index t (1 : Fin 2) * 128 + 1 * (j 1).val; omega
  rw [h0, h1, h2, h3]

/-- What point `t` writes back is block `t` of `G` of the launched arrays. -/
theorem flushed_eq (c : Dev nD) (t : Fin cfg0.N) :
    (dats m 0 c).flushed 4 t = ((cfg0.win 4).blk t).view.read (Elt Ideal)
      (G (V m c main_v54) (V m c main_v55) (V m c main_v56) (V m c main_v57)) := by
  show (cfg0.win 4).cut (grid0.coords t) ((dats m 0 c).after 4 t) = _
  rw [after0_4]
  unfold out0_4
  rw [View.canon_unit_zero hz]
  simp only [View.ld_unit_zero (S := S5000x128) hz]
  rw [pay_eq]
  unfold iblk
  exact blockwise t _ _ _ _

/-- An index of the array is in point `t`'s block iff each coordinate is in the block's range on its axis. -/
theorem mem_blk (t : Fin cfg0.N) (i : S125000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v58).slice (win0_4.rect t)).set ↔ _
  rw [View.set_slice_whole, Rect.mem_set_unit]
  exact Iff.rfl

/-- The 25 blocks tile the array: row `r` lies in the block of point `r / 5000`. -/
theorem cover (i : S125000x128.Idx) :
    ∃ t : Fin cfg0.N, (cfg0.win 4).flush t = true ∧ i ∈ ((cfg0.win 4).blk t).view.set := by
  have hi0 : (i 0).val < 125000 := (i 0).isLt
  have hi1 : (i 1).val < 128 := (i 1).isLt
  have hN : cfg0.N = 25 := N_0
  refine ⟨⟨(i 0).val / 5000, by rw [hN]; omega⟩, flush0_4 _, ?_⟩
  obtain ⟨e0, e1⟩ := idx4 ⟨(i 0).val / 5000, by rw [hN]; omega⟩
  rw [mem_blk]
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- The output array after the run: the folded edge energy of the launched arrays, at every index. -/
theorem final (c : Dev nD) :
    (dats m 0 c).arrAt 4 cfg0.N = G (V m c main_v54) (V m c main_v55) (V m c main_v56) (V m c main_v57) :=
  (dats m 0 c).arrAt_eq_of_cover 4 _ (fun t _ => flushed_eq m c t) cover

end Cert.KernelIdeal.Blocks

end
-- ==== Proof.HostReads.lean ====
/-
  The host-side index arithmetic of the pair potential, read at one edge.

  Both programs reach an atom's data through the same few layout steps: a row of the [2, E] pair list cut out
  and flattened; a negative position wrapped by the table's length; a take (a gather of single entries, the
  position read signed and clamped into the table); and, in one of the programs, a take of whole ROWS of a
  two-column per-atom table [z | r] followed by cutting one column out. Each step is read here at an edge `e`,
  for any witnesses of the shape relations the operations take.
-/
import Idealize.ShloMosaic.Lib.Pipeline.Value
import Idealize.ShloMosaic.Lib.StableHlo.Predicate
import proofs.«405888_j79860621902322_3_alg».proof.Proof.ZblSpec

noncomputable section

namespace Cert.Zbl

open Idealize.ShloMosaic Idealize.ShloMosaic.ValueIdx

abbrev S1E : Shape := ⟨2, ![1, 16000000]⟩
abbrev SA1 : Shape := ⟨2, ![1000000, 1]⟩
abbrev SA2 : Shape := ⟨2, ![1000000, 2]⟩
abbrev SE2 : Shape := ⟨2, ![16000000, 2]⟩

variable {α : Type}

/-- Row 0 of the pair list, flattened: the first ends. -/
theorem endI_read (p : IVec SP 32) (hs : SP.Slices ![0, 0] S1E) (hc : S1E.ShapeCasts SE) (e : SE.Idx) :
    shapeCast SE (extractStridedSlice S1E ![0, 0] p hs) hc e = endI p e := by
  unfold endI
  -- the flat position e is position (0, e) of the one-row cut, which is position (0 + 0, 0 + e) of the pair list
  refine (shapeCast_apply _ hc e (ix2 (0 : Fin 1) (e 0)) ?_).trans ?_
  · rewrite [Shape.rowMajor_val_two, Shape.rowMajor_val_one]
    show 0 * 16000000 + (e 0).val = (e 0).val
    omega
  · exact extractStridedSlice_apply ![0, 0] p hs (ix2 (0 : Fin 1) (e 0)) (ix2 (0 : Fin 2) (e 0)) (fun a => match a with
      | ⟨0, _⟩ => by show (0 : Nat) = 0 + 0; omega
      | ⟨1, _⟩ => by show (e 0).val = 0 + (e 0).val; omega)

/-- Row 1 of the pair list, flattened: the second ends. -/
theorem endJ_read (p : IVec SP 32) (hs : SP.Slices ![1, 0] S1E) (hc : S1E.ShapeCasts SE) (e : SE.Idx) :
    shapeCast SE (extractStridedSlice S1E ![1, 0] p hs) hc e = endJ p e := by
  unfold endJ
  -- the flat position e is position (0, e) of the one-row cut, which is position (1 + 0, 0 + e) of the pair list
  refine (shapeCast_apply _ hc e (ix2 (0 : Fin 1) (e 0)) ?_).trans ?_
  · rewrite [Shape.rowMajor_val_two, Shape.rowMajor_val_one]
    show 0 * 16000000 + (e 0).val = (e 0).val
    omega
  · exact extractStridedSlice_apply ![1, 0] p hs (ix2 (0 : Fin 1) (e 0)) (ix2 (1 : Fin 2) (e 0)) (fun a => match a with
      | ⟨0, _⟩ => by show (1 : Nat) = 1 + 0; omega
      | ⟨1, _⟩ => by show (e 0).val = 0 + (e 0).val; omega)

/-- A scalar laid over a shape reads as the scalar everywhere. -/
theorem bcast0_read {S : Shape} (hb : S0.BroadcastsInDim S (![] : Fin 0 → Fin S.rank)) (x : S0.Idx → α) (i : S.Idx) :
    broadcastInDim S ![] hb x i = x ix0 :=
  -- the scalar shape has no axis, so there is nothing to check about the one index it has
  broadcastInDim_apply ![] hb x i ix0 (fun a => a.elim0)

/-- The wrap of negative positions, element by element: `x < 0 ? x + N : x`. -/
theorem wrap_read {S : Shape} (N : BitVec 32) (hb : S0.BroadcastsInDim S (![] : Fin 0 → Fin S.rank)) (x : IVec S 32) (i : S.Idx) :
    select (cmpi .slt x (broadcastInDim S ![] hb (constantI S0 32 0#32)))
      (addi x (broadcastInDim S ![] hb (constantI S0 32 N))) x i = wrap N (x i) := by
  -- every operation is pointwise, and the two laid-over scalars read as the scalars
  show Scalar.select (IntOp.cmpi .slt (x i) (broadcastInDim S ![] hb (constantI S0 32 0#32) i))
      (IntOp.addi (x i) (broadcastInDim S ![] hb (constantI S0 32 N) i)) (x i) = wrap N (x i)
  rw [bcast0_read hb, bcast0_read hb]
  rfl

/-- A take of single entries of a length-`N` table at `n` positions (given as an [n, 1] column): entry `t` is the
    table at position `t`, read signed and clamped into the table. -/
theorem take_read {N n : Nat} (hN : 0 < N) (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (hb : (⟨1, ![n]⟩ : Shape).BroadcastsInDim ⟨2, ![n, 1]⟩ (![0] : Fin 1 → Fin 2))
    (x : (⟨1, ![N]⟩ : Shape).Idx → α) (pos : IVec ⟨1, ![n]⟩ 32) (t : (⟨1, ![n]⟩ : Shape).Idx) :
    Host.gather d x (broadcastInDim ⟨2, ![n, 1]⟩ ![0] hb pos) t = x (clampIx N hN (pos t)) := by
  -- a rank-1 index is its one coordinate
  obtain ⟨p, rfl⟩ : ∃ p : Fin n, t = Shape.Idx.ofFin p := ⟨t 0, Shape.Idx.eq_ofFin t⟩
  -- row p of the column of positions is the position at p
  have hcol : broadcastInDim ⟨2, ![n, 1]⟩ ![0] hb pos (StableHlo.Predicate.ixP p) = pos (Shape.Idx.ofFin p) :=
    StableHlo.Predicate.bcast_col1 hb pos p
  refine (StableHlo.Predicate.gather_take d hcoll hob hsim hivd x _ p hN).trans ?_
  refine congrArg x ?_
  funext a
  have ha : a = 0 := Subsingleton.elim _ _
  subst ha
  apply Fin.ext
  exact congrArg (fun b : BitVec 32 => min b.toInt.toNat (N - 1)) hcol

/-- A coordinate of a rank-2 index read at an axis that is a given one. -/
private theorem coord_of_eq {m : Fin 2 → Nat} (j : (a : Fin 2) → Fin (m a)) (b a : Fin 2) (h : a = b) : (j a).val = (j b).val := by
  subst h; rfl

/-- The start-indices position a row take reads for result row `j 0`: row `j 0` of the column. -/
private theorem rows_siIdx {N n : Nat} (d : GatherDims ⟨2, ![N, 2]⟩ ⟨2, ![n, 1]⟩ ⟨2, ![n, 2]⟩)
    (hoff : d.offsetDims = [1]) (hsim : d.startIndexMap = [0]) (hivd : d.indexVectorDim = 1)
    (j : (⟨2, ![n, 2]⟩ : Shape).Idx) (c : Fin d.startIndexMap.length) :
    d.siIdx j c = StableHlo.Predicate.ixP (j 0) := by
  funext b
  match b with
  | ⟨0, _⟩ =>
    unfold GatherDims.siIdx
    rw [dif_neg (by rw [hivd]; simp)]
    unfold GatherDims.siCoord
    apply Fin.ext
    simp only [Fin.val_cast]
    have hall : ∀ a : Fin 2, a ∈ d.batchDims → a = (0 : Fin 2) := by
      intro a ha
      rw [GatherDims.batchDims, hoff] at ha
      have ha2 : a ∈ (List.finRange 2).filter (fun b : Fin 2 => decide (b ∉ ([1] : List (Fin 2)))) := ha
      clear ha
      revert a
      decide
    exact coord_of_eq j 0 _ (hall _ (List.getElem_mem _))
  | ⟨1, _⟩ =>
    unfold GatherDims.siIdx
    rw [dif_pos (by rw [hivd])]
    apply Fin.ext
    have hlen : d.startIndexMap.length = 1 := by rw [hsim]; rfl
    have hc : c.val < d.startIndexMap.length := c.isLt
    show c.val = 0
    omega

/-- The row take, read at row `p` and column `c`: the table at the clamped row, the same column. -/
private theorem rows_gather {N n : Nat} (hN : 0 < N) (d : GatherDims ⟨2, ![N, 2]⟩ ⟨2, ![n, 1]⟩ ⟨2, ![n, 2]⟩)
    (hoff : d.offsetDims = [1]) (hcoll : d.collapsedSliceDims = [0]) (hob : d.operandBatchingDims = [])
    (hsim : d.startIndexMap = [0]) (hivd : d.indexVectorDim = 1)
    (x : (⟨2, ![N, 2]⟩ : Shape).Idx → α) (idx : IVec ⟨2, ![n, 1]⟩ 32) (p : Fin n) (c : Fin 2)
    (b : BitVec 32) (hb : idx (StableHlo.Predicate.ixP p) = b) :
    Host.gather d x idx (ix2 p c) = x (ix2 ⟨min b.toInt.toNat (N - 1), by omega⟩ c) := by
  subst hb
  unfold Host.gather
  refine congrArg x ?_
  funext a
  have hnb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min (idx (StableHlo.Predicate.ixP p)).toInt.toNat (N - 1)
    rw [GatherDims.batchCoord_eq_zero _ _ _ (hnb 0), GatherDims.offCoord_eq_zero _ _ _ hk, Nat.add_zero]
    unfold GatherDims.start
    rw [dif_pos hm, rows_siIdx d hoff hsim hivd]
    show min (idx (StableHlo.Predicate.ixP p)).toInt.toNat (N - d.sliceSizes 0) = _
    rw [hsl]
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 p c) idx 1 + d.batchCoord (ix2 p c) 1 + d.offCoord (ix2 p c) 1 = c.val
    rw [GatherDims.batchCoord_eq_zero _ _ _ (hnb 1), Nat.add_zero]
    unfold GatherDims.start GatherDims.offCoord
    rw [dif_neg hm, dif_pos hk, Nat.zero_add]
    have hall : ∀ a ∈ d.offsetDims, a = (1 : Fin 2) := by
      intro a ha
      rw [hoff] at ha
      exact List.mem_singleton.1 ha
    exact coord_of_eq (ix2 p c) 1 _ (hall _ (List.getElem_mem _))

/-- The two spellings of the rank-1 index at a coordinate. -/
private theorem ofFin_eq_ix1 {n : Nat} (q : Fin n) : Shape.Idx.ofFin q = ix1 q := by
  funext a
  have ha : a = 0 := Subsingleton.elim _ _
  subst ha
  exact Fin.ext rfl

/-- A take of whole rows of the two-column table [u | v], then column 0 cut out and flattened: `u` at the
    clamped position. -/
theorem rows_col0_read (d : GatherDims SA2 SE1 SE2)
    (hoff : d.offsetDims = [1]) (hcoll : d.collapsedSliceDims = [0]) (hob : d.operandBatchingDims = [])
    (hsim : d.startIndexMap = [0]) (hivd : d.indexVectorDim = 1) (hsl : d.sliceSizes = ![1, 2])
    (hcat : Shape.Concatenates [SA1, SA1] SA2 1)
    (hbA : SA.BroadcastsInDim SA1 (![0] : Fin 1 → Fin 2)) (hbE : SE.BroadcastsInDim SE1 (![0] : Fin 1 → Fin 2))
    (hs : SE2.Slices ![0, 0] SE1) (hc : SE1.ShapeCasts SE)
    (u v : SA.Idx → α) (pos : IVec SE 32) (e : SE.Idx) :
    shapeCast SE (extractStridedSlice SE1 ![0, 0]
      (Host.gather d (concatenate SA2 1 [⟨SA1, broadcastInDim SA1 ![0] hbA u⟩, ⟨SA1, broadcastInDim SA1 ![0] hbA v⟩] hcat)
        (broadcastInDim SE1 ![0] hbE pos)) hs) hc e
      = u (clampIx 1000000 (by decide) (pos e)) := by
  obtain ⟨p, rfl⟩ : ∃ p : Fin 16000000, e = Shape.Idx.ofFin p := ⟨e 0, Shape.Idx.eq_ofFin e⟩
  -- the flat position p is position (p, 0) of the one-column cut, which is position (0 + p, 0 + 0) of the taken rows
  refine (shapeCast_apply _ hc _ (StableHlo.Predicate.ixP p) ?_).trans ?_
  · rewrite [Shape.rowMajor_val_two, Shape.rowMajor_val_one]
    show p.val * 1 + 0 = p.val
    omega
  refine (extractStridedSlice_apply ![0, 0] _ hs (StableHlo.Predicate.ixP p) (ix2 p (0 : Fin 2)) (fun a => match a with
      | ⟨0, _⟩ => by show p.val = 0 + p.val; omega
      | ⟨1, _⟩ => by show (0 : Nat) = 0 + 0; omega)).trans ?_
  -- the taken row is the table's row at the clamped position; its column 0 lies in the first piece
  refine (rows_gather (by decide) d hoff hcoll hob hsim hivd _ _ p 0 (pos (Shape.Idx.ofFin p))
    (StableHlo.Predicate.bcast_col1 hbE pos p)).trans ?_
  refine (concatenate_pair_apply_left 1 _ _ hcat _ rfl
    (StableHlo.Predicate.ixP ⟨min (pos (Shape.Idx.ofFin p)).toInt.toNat (1000000 - 1), by omega⟩) (fun b => match b with
      | ⟨0, _⟩ => rfl
      | ⟨1, _⟩ => rfl)).trans ?_
  refine (StableHlo.Predicate.bcast_col1 hbA u _).trans ?_
  unfold clampIx
  exact congrArg u (ofFin_eq_ix1 _)

/-- The same with column 1 cut out: `v` at the clamped position. -/
theorem rows_col1_read (d : GatherDims SA2 SE1 SE2)
    (hoff : d.offsetDims = [1]) (hcoll : d.collapsedSliceDims = [0]) (hob : d.operandBatchingDims = [])
    (hsim : d.startIndexMap = [0]) (hivd : d.indexVectorDim = 1) (hsl : d.sliceSizes = ![1, 2])
    (hcat : Shape.Concatenates [SA1, SA1] SA2 1)
    (hbA : SA.BroadcastsInDim SA1 (![0] : Fin 1 → Fin 2)) (hbE : SE.BroadcastsInDim SE1 (![0] : Fin 1 → Fin 2))
    (hs : SE2.Slices ![0, 1] SE1) (hc : SE1.ShapeCasts SE)
    (u v : SA.Idx → α) (pos : IVec SE 32) (e : SE.Idx) :
    shapeCast SE (extractStridedSlice SE1 ![0, 1]
      (Host.gather d (concatenate SA2 1 [⟨SA1, broadcastInDim SA1 ![0] hbA u⟩, ⟨SA1, broadcastInDim SA1 ![0] hbA v⟩] hcat)
        (broadcastInDim SE1 ![0] hbE pos)) hs) hc e
      = v (clampIx 1000000 (by decide) (pos e)) := by
  obtain ⟨p, rfl⟩ : ∃ p : Fin 16000000, e = Shape.Idx.ofFin p := ⟨e 0, Shape.Idx.eq_ofFin e⟩
  -- the flat position p is position (p, 0) of the one-column cut, which is position (0 + p, 1 + 0) of the taken rows
  refine (shapeCast_apply _ hc _ (StableHlo.Predicate.ixP p) ?_).trans ?_
  · rewrite [Shape.rowMajor_val_two, Shape.rowMajor_val_one]
    show p.val * 1 + 0 = p.val
    omega
  refine (extractStridedSlice_apply ![0, 1] _ hs (StableHlo.Predicate.ixP p) (ix2 p (1 : Fin 2)) (fun a => match a with
      | ⟨0, _⟩ => by show p.val = 0 + p.val; omega
      | ⟨1, _⟩ => by show (1 : Nat) = 1 + 0; omega)).trans ?_
  -- the taken row is the table's row at the clamped position; its column 1 is column 0 of the second piece
  refine (rows_gather (by decide) d hoff hcoll hob hsim hivd _ _ p 1 (pos (Shape.Idx.ofFin p))
    (StableHlo.Predicate.bcast_col1 hbE pos p)).trans ?_
  refine (concatenate_pair_apply_right 1 _ _ hcat _ rfl rfl
    (StableHlo.Predicate.ixP ⟨min (pos (Shape.Idx.ofFin p)).toInt.toNat (1000000 - 1), by omega⟩) (fun b => match b with
      | ⟨0, _⟩ => fun _ => rfl
      | ⟨1, _⟩ => fun h => absurd rfl h) ?_).trans ?_
  · show 0 + 1 = 1
    rfl
  refine (StableHlo.Predicate.bcast_col1 hbA v _).trans ?_
  unfold clampIx
  exact congrArg v (ofFin_eq_ix1 _)

end Cert.Zbl

end
-- ==== Proof.KernelHost.lean ====
/-
  The arrays the kernel region is launched on, and what the host does with its output.

  Before the region the host gathers, per edge, the two atoms' numbers and radii out of a two-column per-atom
  table [z | r] (the radius column itself a take of the radii table at the atomic numbers), forms the power sum,
  the MASKED charge product (`z_i` replaced by zero unless `i < j`) and the radius sum, and lays each of them,
  and the distances, out as [125000, 128]. After the region it flattens the output and scatter-adds it by the
  first ends' systems.
-/
import proofs.«405888_j79860621902322_3_alg».proof.Proof.Gen.KernelIdeal.Frame
import proofs.«405888_j79860621902322_3_alg».proof.Proof.HostReads
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The argument arrays by their roles. -/
abbrev dist (c : Dev nD) : FVec Ideal S16000000 .f32 := m ((c.tc : Thread nD τ).loc main_arg0)
abbrev radii (c : Dev nD) : FVec Ideal S97 .f32 := m ((c.tc : Thread nD τ).loc main_arg1)
abbrev pairs (c : Dev nD) : IVec S2x16000000 32 := m ((c.tc : Thread nD τ).loc main_arg2)
abbrev numbers (c : Dev nD) : IVec S1000000 32 := m ((c.tc : Thread nD τ).loc main_arg3)
abbrev systems (c : Dev nD) : IVec S1000000 32 := m ((c.tc : Thread nD τ).loc main_arg4)

/-! ## The per-edge reads of the host's arrays, for any pair list, radii table and atomic numbers -/

section Reads

open Cert.Zbl

variable (p : IVec S2x16000000 32) (a1 : FVec Ideal S97 .f32) (a3 : IVec S1000000 32)

/-- The first ends, a negative one wrapped by the number of atoms. -/
private abbrev posI : IVec S16000000 32 :=
  select
    (cmpi .slt (shapeCast S16000000 (extractStridedSlice S1x16000000 ![0, 0] p slices_S2x16000000_S1x16000000_0_0) shapeCasts_S1x16000000_S16000000)
      (broadcastInDim S16000000 ![] bcast_S_S16000000 (constantI S_ 32 0#32)))
    (addi (shapeCast S16000000 (extractStridedSlice S1x16000000 ![0, 0] p slices_S2x16000000_S1x16000000_0_0) shapeCasts_S1x16000000_S16000000)
      (broadcastInDim S16000000 ![] bcast_S_S16000000 (constantI S_ 32 1000000#32)))
    (shapeCast S16000000 (extractStridedSlice S1x16000000 ![0, 0] p slices_S2x16000000_S1x16000000_0_0) shapeCasts_S1x16000000_S16000000)

/-- The second ends, likewise. -/
private abbrev posJ : IVec S16000000 32 :=
  select
    (cmpi .slt (shapeCast S16000000 (extractStridedSlice S1x16000000 ![1, 0] p slices_S2x16000000_S1x16000000_1_0) shapeCasts_S1x16000000_S16000000)
      (broadcastInDim S16000000 ![] bcast_S_S16000000 (constantI S_ 32 0#32)))
    (addi (shapeCast S16000000 (extractStridedSlice S1x16000000 ![1, 0] p slices_S2x16000000_S1x16000000_1_0) shapeCasts_S1x16000000_S16000000)
      (broadcastInDim S16000000 ![] bcast_S_S16000000 (constantI S_ 32 1000000#32)))
    (shapeCast S16000000 (extractStridedSlice S1x16000000 ![1, 0] p slices_S2x16000000_S1x16000000_1_0) shapeCasts_S1x16000000_S16000000)

private theorem posI_read (e : S16000000.Idx) : posI p e = wrap 1000000#32 (endI p e) :=
  (wrap_read 1000000#32 bcast_S_S16000000 _ e).trans (congrArg (wrap 1000000#32) (endI_read p _ _ e))

private theorem posJ_read (e : S16000000.Idx) : posJ p e = wrap 1000000#32 (endJ p e) :=
  (wrap_read 1000000#32 bcast_S_S16000000 _ e).trans (congrArg (wrap 1000000#32) (endJ_read p _ _ e))

/-- The radius of every atom: the radii table taken at the atomic numbers, a negative one wrapped by the table's length. -/
private abbrev rtab : FVec Ideal S1000000 .f32 :=
  Host.gather gather_S97_S1000000x1_S1000000_n_0_n_n_0_1_1 a1
    (broadcastInDim S1000000x1 ![0] bcast_S1000000_S1000000x1_0
      (select (cmpi .slt a3 (broadcastInDim S1000000 ![] bcast_S_S1000000 (constantI S_ 32 0#32)))
        (addi a3 (broadcastInDim S1000000 ![] bcast_S_S1000000 (constantI S_ 32 97#32))) a3))

private theorem rtab_read (t : S1000000.Idx) : rtab a1 a3 t = a1 (clampIx 97 (by decide) (wrap 97#32 (a3 t))) :=
  (take_read (N := 97) (n := 1000000) (by decide) _ rfl rfl rfl rfl _ _ _ t).trans
    (congrArg (fun b => a1 (clampIx 97 (by decide) b)) (wrap_read 97#32 bcast_S_S1000000 a3 t))

/-- The per-atom table [z | r]. -/
private abbrev table : FVec Ideal S1000000x2 .f32 :=
  concatenate S1000000x2 1
    [⟨S1000000x1, broadcastInDim S1000000x1 ![0] bcast_S1000000_S1000000x1_0 (sitofp (F := Ideal) .f32 a3)⟩,
      ⟨S1000000x1, broadcastInDim S1000000x1 ![0] bcast_S1000000_S1000000x1_0 (rtab a1 a3)⟩]
    concatenates_S1000000x1_S1000000x1_S1000000x2_d1

/-- Column 0 of the table's rows at the positions `pos`. -/
private abbrev zArr (pos : IVec S16000000 32) : FVec Ideal S16000000 .f32 :=
  shapeCast S16000000 (extractStridedSlice S16000000x1 ![0, 0]
    (Host.gather gather_S1000000x2_S16000000x1_S16000000x2_1_0_n_n_0_1_12 (table a1 a3)
      (broadcastInDim S16000000x1 ![0] bcast_S16000000_S16000000x1_0 pos)) slices_S16000000x2_S16000000x1_0_0)
    shapeCasts_S16000000x1_S16000000

/-- Column 1 of the table's rows at the positions `pos`. -/
private abbrev rArr (pos : IVec S16000000 32) : FVec Ideal S16000000 .f32 :=
  shapeCast S16000000 (extractStridedSlice S16000000x1 ![0, 1]
    (Host.gather gather_S1000000x2_S16000000x1_S16000000x2_1_0_n_n_0_1_12 (table a1 a3)
      (broadcastInDim S16000000x1 ![0] bcast_S16000000_S16000000x1_0 pos)) slices_S16000000x2_S16000000x1_0_1)
    shapeCasts_S16000000x1_S16000000

private theorem zArr_read (pos : IVec S16000000 32) (e : S16000000.Idx) :
    zArr a1 a3 pos e = FloatOps.sitofp (F := Ideal) .f32 (a3 (clampIx 1000000 (by decide) (pos e))) :=
  rows_col0_read _ rfl rfl rfl rfl rfl rfl _ _ _ _ _ (sitofp (F := Ideal) .f32 a3) (rtab a1 a3) pos e

private theorem rArr_read (pos : IVec S16000000 32) (e : S16000000.Idx) :
    rArr a1 a3 pos e = a1 (clampIx 97 (by decide) (wrap 97#32 (a3 (clampIx 1000000 (by decide) (pos e))))) :=
  (rows_col1_read _ rfl rfl rfl rfl rfl rfl _ _ _ _ _ (sitofp (F := Ideal) .f32 a3) (rtab a1 a3) pos e).trans (rtab_read a1 a3 _)

/-- The atomic numbers and radii of an edge's two ends. -/
private theorem zI_read (e : S16000000.Idx) : zArr a1 a3 (posI p) e = zAt a3 (endI p e) :=
  (zArr_read a1 a3 _ e).trans (congrArg (fun b => FloatOps.sitofp (F := Ideal) .f32 (a3 (clampIx 1000000 (by decide) b))) (posI_read p e))

private theorem zJ_read (e : S16000000.Idx) : zArr a1 a3 (posJ p) e = zAt a3 (endJ p e) :=
  (zArr_read a1 a3 _ e).trans (congrArg (fun b => FloatOps.sitofp (F := Ideal) .f32 (a3 (clampIx 1000000 (by decide) b))) (posJ_read p e))

private theorem rI_read (e : S16000000.Idx) : rArr a1 a3 (posI p) e = rAt a1 a3 (endI p e) :=
  (rArr_read a1 a3 _ e).trans
    (congrArg (fun b => a1 (clampIx 97 (by decide) (wrap 97#32 (a3 (clampIx 1000000 (by decide) b))))) (posI_read p e))

private theorem rJ_read (e : S16000000.Idx) : rArr a1 a3 (posJ p) e = rAt a1 a3 (endJ p e) :=
  (rArr_read a1 a3 _ e).trans
    (congrArg (fun b => a1 (clampIx 97 (by decide) (wrap 97#32 (a3 (clampIx 1000000 (by decide) b))))) (posJ_read p e))

end Reads

/-- An operation's result holds, at the operation's own result buffer, its function's value of the operands' contents,
    and at any other buffer what was there before. -/
local macro "results_rw" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- Window 0's array: the distances, laid out [125000, 128]. -/
theorem V54_eq (c : Dev nD) :
    (V m c main_v54 : FVec Ideal S125000x128 .f32) = shapeCast S125000x128 (dist m c) shapeCasts_S16000000_S125000x128 := by
  show StableHlo.after (List.flatten [hostOps0, hostOps0_1, hostOps0_2]) (fun b => m (c, b)) (Proc.devRef .tc main_v54) = _
  simp only [hostOps0, hostOps0_1, hostOps0_2, List.flatten_cons, List.flatten_nil, List.append_nil, List.cons_append, List.nil_append]
  after_results_simp
  rfl

set_option maxHeartbeats 8000000 in
/-- Window 1's array: the power sums `z_i^0.23 + z_j^0.23`. -/
theorem V55_eq (c : Dev nD) :
    (V m c main_v55 : FVec Ideal S125000x128 .f32) = shapeCast S125000x128
      (fun e : S16000000.Idx => Cert.Zbl.zpow (Cert.Zbl.zAt (numbers m c) (Cert.Zbl.endI (pairs m c) e))
        (Cert.Zbl.zAt (numbers m c) (Cert.Zbl.endJ (pairs m c) e))) shapeCasts_S16000000_S125000x128 := by
  show StableHlo.after (List.flatten [hostOps0, hostOps0_1, hostOps0_2]) (fun b => m (c, b)) (Proc.devRef .tc main_v55) = _
  simp only [hostOps0, hostOps0_1, hostOps0_2, List.flatten_cons, List.flatten_nil, List.append_nil, List.cons_append, List.nil_append]
  after_results_simp
  results_rw
  show shapeCast S125000x128
      (addf (Host.powf (zArr (radii m c) (numbers m c) (posI (pairs m c)))
          (broadcastInDim S16000000 ![] bcast_S_S16000000 (constant (F := Ideal) S_ .f32 0x3E6B851F#32)))
        (Host.powf (zArr (radii m c) (numbers m c) (posJ (pairs m c)))
          (broadcastInDim S16000000 ![] bcast_S_S16000000 (constant (F := Ideal) S_ .f32 0x3E6B851F#32))))
      shapeCasts_S16000000_S125000x128 = _
  refine congrArg (fun x => shapeCast S125000x128 x shapeCasts_S16000000_S125000x128) (funext fun e => ?_)
  have hk : broadcastInDim S16000000 ![] bcast_S_S16000000 (constant (F := Ideal) S_ .f32 0x3E6B851F#32) e
      = Cert.Zbl.cW 0x3E6B851F#32 := Cert.Zbl.bcast0_read _ _ e
  show Ideal.pow (zArr (radii m c) (numbers m c) (posI (pairs m c)) e)
        (broadcastInDim S16000000 ![] bcast_S_S16000000 (constant (F := Ideal) S_ .f32 0x3E6B851F#32) e)
      + Ideal.pow (zArr (radii m c) (numbers m c) (posJ (pairs m c)) e)
        (broadcastInDim S16000000 ![] bcast_S_S16000000 (constant (F := Ideal) S_ .f32 0x3E6B851F#32) e) = _
  rw [hk, zI_read, zJ_read]
  rfl

set_option maxHeartbeats 8000000 in
/-- Window 2's array: the masked charge products. -/
theorem V56_eq (c : Dev nD) :
    (V m c main_v56 : FVec Ideal S125000x128 .f32) = shapeCast S125000x128
      (fun e : S16000000.Idx => Cert.Zbl.qMasked (IntOp.cmpi .slt (Cert.Zbl.endI (pairs m c) e) (Cert.Zbl.endJ (pairs m c) e))
        (Cert.Zbl.zAt (numbers m c) (Cert.Zbl.endI (pairs m c) e)) (Cert.Zbl.zAt (numbers m c) (Cert.Zbl.endJ (pairs m c) e)))
      shapeCasts_S16000000_S125000x128 := by
  show StableHlo.after (List.flatten [hostOps0, hostOps0_1, hostOps0_2]) (fun b => m (c, b)) (Proc.devRef .tc main_v56) = _
  simp only [hostOps0, hostOps0_1, hostOps0_2, List.flatten_cons, List.flatten_nil, List.append_nil, List.cons_append, List.nil_append]
  after_results_simp
  results_rw
  show shapeCast S125000x128
      (mulf
        (select
          (cmpi .slt
            (shapeCast S16000000 (extractStridedSlice S1x16000000 ![0, 0] (pairs m c) slices_S2x16000000_S1x16000000_0_0)
              shapeCasts_S1x16000000_S16000000)
            (shapeCast S16000000 (extractStridedSlice S1x16000000 ![1, 0] (pairs m c) slices_S2x16000000_S1x16000000_1_0)
              shapeCasts_S1x16000000_S16000000))
          (zArr (radii m c) (numbers m c) (posI (pairs m c)))
          (broadcastInDim S16000000 ![] bcast_S_S16000000 (constant (F := Ideal) S_ .f32 0x00000000#32)))
        (zArr (radii m c) (numbers m c) (posJ (pairs m c))))
      shapeCasts_S16000000_S125000x128 = _
  refine congrArg (fun x => shapeCast S125000x128 x shapeCasts_S16000000_S125000x128) (funext fun e => ?_)
  have h0 : broadcastInDim S16000000 ![] bcast_S_S16000000 (constant (F := Ideal) S_ .f32 0x00000000#32) e
      = Cert.Zbl.cW 0x00000000#32 := Cert.Zbl.bcast0_read _ _ e
  show Scalar.select
        (IntOp.cmpi .slt
          (shapeCast S16000000 (extractStridedSlice S1x16000000 ![0, 0] (pairs m c) slices_S2x16000000_S1x16000000_0_0)
            shapeCasts_S1x16000000_S16000000 e)
          (shapeCast S16000000 (extractStridedSlice S1x16000000 ![1, 0] (pairs m c) slices_S2x16000000_S1x16000000_1_0)
            shapeCasts_S1x16000000_S16000000 e))
        (zArr (radii m c) (numbers m c) (posI (pairs m c)) e)
        (broadcastInDim S16000000 ![] bcast_S_S16000000 (constant (F := Ideal) S_ .f32 0x00000000#32) e)
      * zArr (radii m c) (numbers m c) (posJ (pairs m c)) e = _
  rw [h0, zI_read, zJ_read, Cert.Zbl.endI_read, Cert.Zbl.endJ_read]
  rfl

set_option maxHeartbeats 8000000 in
/-- Window 3's array: the radius sums. -/
theorem V57_eq (c : Dev nD) :
    (V m c main_v57 : FVec Ideal S125000x128 .f32) = shapeCast S125000x128
      (fun e : S16000000.Idx => Cert.Zbl.rAt (radii m c) (numbers m c) (Cert.Zbl.endI (pairs m c) e)
        + Cert.Zbl.rAt (radii m c) (numbers m c) (Cert.Zbl.endJ (pairs m c) e)) shapeCasts_S16000000_S125000x128 := by
  show StableHlo.after (List.flatten [hostOps0, hostOps0_1, hostOps0_2]) (fun b => m (c, b)) (Proc.devRef .tc main_v57) = _
  simp only [hostOps0, hostOps0_1, hostOps0_2, List.flatten_cons, List.flatten_nil, List.append_nil, List.cons_append, List.nil_append]
  after_results_simp
  results_rw
  show shapeCast S125000x128
      (addf (rArr (radii m c) (numbers m c) (posI (pairs m c))) (rArr (radii m c) (numbers m c) (posJ (pairs m c))))
      shapeCasts_S16000000_S125000x128 = _
  refine congrArg (fun x => shapeCast S125000x128 x shapeCasts_S16000000_S125000x128) (funext fun e => ?_)
  show rArr (radii m c) (numbers m c) (posI (pairs m c)) e + rArr (radii m c) (numbers m c) (posJ (pairs m c)) e = _
  rw [rI_read, rJ_read]

/-- The systems the output is scattered by: those of the first ends. -/
theorem V35_eq (c : Dev nD) : (V m c main_v35 : IVec S16000000 32) = Cert.Zbl.sys (pairs m c) (systems m c) := by
  show StableHlo.after (List.flatten [hostOps0, hostOps0_1, hostOps0_2]) (fun b => m (c, b)) (Proc.devRef .tc main_v35) = _
  simp only [hostOps0, hostOps0_1, hostOps0_2, List.flatten_cons, List.flatten_nil, List.append_nil, List.cons_append, List.nil_append]
  after_results_simp
  funext e
  refine (Cert.Zbl.take_read (N := 1000000) (n := 16000000) (by decide) _ rfl rfl rfl rfl _ _ _ e).trans ?_
  unfold Cert.Zbl.sys Cert.Zbl.sysAt Cert.Zbl.atom
  refine congrArg (fun b => systems m c (Cert.Zbl.clampIx 1000000 (by decide) b)) ?_
  refine (Cert.Zbl.wrap_read 1000000#32 bcast_S_S16000000 _ e).trans ?_
  exact congrArg (Cert.Zbl.wrap 1000000#32) (Cert.Zbl.endI_read _ _ _ e)

/-- What the host makes of the region's output array: flattened, scatter-added by system into zeros, as a column. -/
theorem tail_eq (c : Dev nD) :
    Pipeline.afterTail₀ cfgs (dats m) 0 (V0 m) [hostOps1] c main_v63
      = Cert.Zbl.perSystem scatter_S10000_S16000000x1_S16000000_n_0_0_1 bcast_S_S10000 bcast_S16000000_S16000000x1_0
          shapeCasts_S10000_S10000x1 (V m c main_v35)
          (shapeCast S16000000 ((dats m 0 c).arrAt 4 cfg0.N) shapeCasts_S125000x128_S16000000) := by
  unfold Pipeline.afterTail₀
  show StableHlo.after hostOps1 _ (Proc.devRef .tc main_v63) = _
  simp only [hostOps1]
  after_results_simp
  have h35 : Pipeline.withArrays (cfgs 0).spec c (V0 m c) (fun w => (dats m 0 c).arrAt w (cfgs 0).N) (Proc.devRef .tc main_v35)
      = V m c main_v35 :=
    Pipeline.withArrays_of_ne spec0 c (V0 m c) _ main_v35 (by decide : ∀ w, Pipeline.arrRef spec0 w ≠ main_v35)
  have h58 : Pipeline.withArrays (cfgs 0).spec c (V0 m c) (fun w => (dats m 0 c).arrAt w (cfgs 0).N) (Proc.devRef .tc main_v58)
      = (dats m 0 c).arrAt 4 cfg0.N :=
    Pipeline.withArrays_arr spec0 launch0.win.arr_inj c _ _ 4
  rw [h35, h58]
  unfold Cert.Zbl.perSystem
  rfl

end Cert.KernelIdeal.HostValue

end
-- ==== Proof.KernelRun.lean ====
/-
  The kernel program's run, with its result named.

  The region's output array is the folded edge energy of the four launched arrays (one function over the whole
  array, the 25 blocks tiling it); those arrays are reshapes of per-edge host arrays, and reshaping there and back
  is the identity, so the flattened output is `Zbl.edgeF` of the arguments. Where no distance is zero that is
  `Zbl.edge`, and the host's last lines scatter-add it by system: the result is the per-system sums of
  `Zbl.edge`.
-/
import proofs.«405888_j79860621902322_3_alg».proof.Proof.KernelBlocks
import proofs.«405888_j79860621902322_3_alg».proof.Proof.KernelHost

set_option maxRecDepth 16384

noncomputable section

namespace Cert.KernelIdeal.RunValue

open Cert.KernelIdeal Cert.KernelIdeal.Gen Cert.KernelIdeal.HostValue Idealize.ShloMosaic Idealize.ShloMosaic.TcCoe
  Idealize.SL.Sem Idealize.ShloMosaic.Pipeline

variable (m : (ℓ : Loc nD τ sig) → Buf (Elt Ideal) ℓ) (ρ : Dev nD → PrngReg)

/-- The per-system sums of the edge energies of core `c`'s arguments, as a column. -/
def result (c : Dev nD) : FVec Ideal S10000x1 .f32 :=
  Cert.Zbl.perSystem scatter_S10000_S16000000x1_S16000000_n_0_0_1 bcast_S_S10000 bcast_S16000000_S16000000x1_0
    shapeCasts_S10000_S10000x1 (Cert.Zbl.sys (pairs m c) (systems m c))
    (Cert.Zbl.edge (dist m c) (radii m c) (pairs m c) (numbers m c))

/-- The region's output, flattened, is the folded edge energy of the arguments, edge by edge. -/
theorem flat_eq (c : Dev nD) :
    shapeCast S16000000 ((dats m 0 c).arrAt 4 cfg0.N) shapeCasts_S125000x128_S16000000
      = Cert.Zbl.edgeF (dist m c) (radii m c) (pairs m c) (numbers m c) := by
  rw [Blocks.final m c, V54_eq m c, V55_eq m c, V56_eq m c, V57_eq m c]
  exact shapeCast_shapeCast (Cert.Zbl.edgeF (dist m c) (radii m c) (pairs m c) (numbers m c))
    shapeCasts_S16000000_S125000x128 shapeCasts_S125000x128_S16000000

/-- With no zero distance, what the host's last lines leave in the result buffer is `result`. -/
theorem tail_result (c : Dev nD) (h0 : ∀ e, dist m c e ≠ 0) :
    Pipeline.afterTail₀ cfgs (dats m) 0 (V0 m) [hostOps1] c main_v63 = result m c := by
  rw [tail_eq m c, V35_eq m c, flat_eq m c, Cert.Zbl.edgeF_eq_edge _ _ _ _ h0]
  rfl

/-- Every weakly fair execution of the kernel program ends with the result buffer at `result` and the arguments
    unchanged, provided no distance is zero. -/
theorem run (h0 : ∀ c e, dist m c e ≠ 0) :
    θ_run defs (onTc (τ := τ) (main (F := Ideal))) ⟨m, fun _ => 0, ρ⟩ (fun r => ∀ c : Dev nD,
      r.2.mem ((c.tc : Thread nD τ).loc main_v63) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v63 (Pipeline.mem_restRefs_of main_v63 (by decide) (by decide))).trans (tail_result m c (h0 c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.RefValue.lean ====
/-
  The reference program's result as the per-system sums of the edge energies.

  Read one operation at a time, the reference computes at edge `e` exactly `Zbl.edge`: the two ends off the pair
  list, each wrapped and clamped into the atom table; the atomic numbers taken there and converted; the radii
  taken at the (wrapped, clamped) atomic numbers; the screened potential with its cosine cut-off; the product
  with the two atomic numbers, the division by the distance, and LAST the test `i < j`. The system of an edge is
  that of its first end. The result is the scatter-add of the energies into a zero vector, as a column.
-/
import proofs.«405888_j79860621902322_3_alg».proof.Proof.Gen.ReferenceIdeal.Read
import proofs.«405888_j79860621902322_3_alg».proof.Proof.HostReads

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The two ends, their atoms, numbers and radii -/

private theorem v1_read (x2 : IVec S2x16000000 32) (e : S16000000.Idx) :
    val_main_v1 (F := Ideal) x2 e = Cert.Zbl.endI x2 e :=
  Cert.Zbl.endI_read x2 slices_S2x16000000_S1x16000000_0_0 shapeCasts_S1x16000000_S16000000 e

private theorem v3_read (x2 : IVec S2x16000000 32) (e : S16000000.Idx) :
    val_main_v3 (F := Ideal) x2 e = Cert.Zbl.endJ x2 e :=
  Cert.Zbl.endJ_read x2 slices_S2x16000000_S1x16000000_1_0 shapeCasts_S1x16000000_S16000000 e

/-- The first end's position, wrapped by the number of atoms. -/
private theorem posI (x2 : IVec S2x16000000 32) (e : S16000000.Idx) :
    val_main_v9 (F := Ideal) x2 e = Cert.Zbl.wrap 1000000#32 (Cert.Zbl.endI x2 e) := by
  rw [← v1_read]
  exact Cert.Zbl.wrap_read 1000000#32 bcast_S_S16000000 (val_main_v1 (F := Ideal) x2) e

/-- The second end's position, wrapped by the number of atoms. -/
private theorem posJ (x2 : IVec S2x16000000 32) (e : S16000000.Idx) :
    val_main_v16 (F := Ideal) x2 e = Cert.Zbl.wrap 1000000#32 (Cert.Zbl.endJ x2 e) := by
  rw [← v3_read]
  exact Cert.Zbl.wrap_read 1000000#32 bcast_S_S16000000 (val_main_v3 (F := Ideal) x2) e

/-- The atomic number word of the first end. -/
private theorem numI (x2 : IVec S2x16000000 32) (x3 : IVec S1000000 32) (e : S16000000.Idx) :
    val_main_v11 (F := Ideal) x2 x3 e = x3 (Cert.Zbl.atom (Cert.Zbl.endI x2 e)) := by
  have h := Cert.Zbl.take_read (N := 1000000) (n := 16000000) (by decide)
    gather_S1000000_S16000000x1_S16000000_n_0_n_n_0_1_1 rfl rfl rfl rfl bcast_S16000000_S16000000x1_0
    x3 (val_main_v9 (F := Ideal) x2) e
  rw [posI] at h
  exact h

/-- The atomic number word of the second end. -/
private theorem numJ (x2 : IVec S2x16000000 32) (x3 : IVec S1000000 32) (e : S16000000.Idx) :
    val_main_v18 (F := Ideal) x2 x3 e = x3 (Cert.Zbl.atom (Cert.Zbl.endJ x2 e)) := by
  have h := Cert.Zbl.take_read (N := 1000000) (n := 16000000) (by decide)
    gather_S1000000_S16000000x1_S16000000_n_0_n_n_0_1_1 rfl rfl rfl rfl bcast_S16000000_S16000000x1_0
    x3 (val_main_v16 (F := Ideal) x2) e
  rw [posJ] at h
  exact h

/-- The atomic number of the first end, converted. -/
private theorem zI (x2 : IVec S2x16000000 32) (x3 : IVec S1000000 32) (e : S16000000.Idx) :
    val_main_v19 (F := Ideal) x2 x3 e = Cert.Zbl.zAt x3 (Cert.Zbl.endI x2 e) := by
  rw [val_main_v19_apply, numI]; rfl

/-- The atomic number of the second end, converted. -/
private theorem zJ (x2 : IVec S2x16000000 32) (x3 : IVec S1000000 32) (e : S16000000.Idx) :
    val_main_v20 (F := Ideal) x2 x3 e = Cert.Zbl.zAt x3 (Cert.Zbl.endJ x2 e) := by
  rw [val_main_v20_apply, numJ]; rfl

/-- The radius of the first end: the table at its atomic number, wrapped by the table's length. -/
private theorem rI (x1 : FVec Ideal S97 .f32) (x2 : IVec S2x16000000 32) (x3 : IVec S1000000 32) (e : S16000000.Idx) :
    val_main_v27 (F := Ideal) x1 x2 x3 e = Cert.Zbl.rAt x1 x3 (Cert.Zbl.endI x2 e) := by
  have hw : val_main_v25 (F := Ideal) x2 x3 e = Cert.Zbl.wrap 97#32 (val_main_v11 (F := Ideal) x2 x3 e) :=
    Cert.Zbl.wrap_read 97#32 bcast_S_S16000000 (val_main_v11 (F := Ideal) x2 x3) e
  have h := Cert.Zbl.take_read (N := 97) (n := 16000000) (by decide)
    gather_S97_S16000000x1_S16000000_n_0_n_n_0_1_1 rfl rfl rfl rfl bcast_S16000000_S16000000x1_0
    x1 (val_main_v25 (F := Ideal) x2 x3) e
  rw [hw, numI] at h
  exact h

/-- The radius of the second end. -/
private theorem rJ (x1 : FVec Ideal S97 .f32) (x2 : IVec S2x16000000 32) (x3 : IVec S1000000 32) (e : S16000000.Idx) :
    val_main_v34 (F := Ideal) x1 x2 x3 e = Cert.Zbl.rAt x1 x3 (Cert.Zbl.endJ x2 e) := by
  have hw : val_main_v32 (F := Ideal) x2 x3 e = Cert.Zbl.wrap 97#32 (val_main_v18 (F := Ideal) x2 x3 e) :=
    Cert.Zbl.wrap_read 97#32 bcast_S_S16000000 (val_main_v18 (F := Ideal) x2 x3) e
  have h := Cert.Zbl.take_read (N := 97) (n := 16000000) (by decide)
    gather_S97_S16000000x1_S16000000_n_0_n_n_0_1_1 rfl rfl rfl rfl bcast_S16000000_S16000000x1_0
    x1 (val_main_v32 (F := Ideal) x2 x3) e
  rw [hw, numJ] at h
  exact h

/-- The test `i < j` on the two ends. -/
private theorem mask (x2 : IVec S2x16000000 32) (e : S16000000.Idx) :
    val_main_v4 (F := Ideal) x2 e = IntOp.cmpi .slt (Cert.Zbl.endI x2 e) (Cert.Zbl.endJ x2 e) := by
  rw [val_main_v4_apply, v1_read, v3_read]

/-! ## The screened distance, the screening function, the cut-off -/

private theorem scr (x0 : FVec Ideal S16000000 .f32) (x2 : IVec S2x16000000 32) (x3 : IVec S1000000 32) (e : S16000000.Idx) :
    val_main_v42 (F := Ideal) x0 x2 x3 e
      = Cert.Zbl.screened (x0 e) (Cert.Zbl.zpow (Cert.Zbl.zAt x3 (Cert.Zbl.endI x2 e)) (Cert.Zbl.zAt x3 (Cert.Zbl.endJ x2 e))) := by
  rw [val_main_v42_apply, val_main_v41_apply, val_main_v40_apply, val_main_cst_8_apply, val_main_v39_apply,
    val_main_v36_apply, val_main_v38_apply, val_main_v35_apply, val_main_cst_apply, val_main_v37_apply,
    val_main_cst_7_apply, zI, zJ]
  rfl

private theorem f (x0 : FVec Ideal S16000000 .f32) (x2 : IVec S2x16000000 32) (x3 : IVec S1000000 32) (e : S16000000.Idx) :
    val_main_v65 (F := Ideal) x0 x2 x3 e = Cert.Zbl.fsum (val_main_v42 (F := Ideal) x0 x2 x3 e) := by
  rw [val_main_v65_apply, val_main_v59_apply, val_main_v53_apply,
    val_main_v47_apply, val_main_v46_apply, val_main_cst_10_apply, val_main_v45_apply, val_main_v44_apply,
    val_main_v43_apply, val_main_cst_9_apply,
    val_main_v52_apply, val_main_v51_apply, val_main_cst_12_apply, val_main_v50_apply, val_main_v49_apply,
    val_main_v48_apply, val_main_cst_11_apply,
    val_main_v58_apply, val_main_v57_apply, val_main_cst_14_apply, val_main_v56_apply, val_main_v55_apply,
    val_main_v54_apply, val_main_cst_13_apply,
    val_main_v64_apply, val_main_v63_apply, val_main_cst_16_apply, val_main_v62_apply, val_main_v61_apply,
    val_main_v60_apply, val_main_cst_15_apply]
  rfl

private theorem cut (x0 : FVec Ideal S16000000 .f32) (x1 : FVec Ideal S97 .f32) (x2 : IVec S2x16000000 32)
    (x3 : IVec S1000000 32) (e : S16000000.Idx) :
    val_main_v76 (F := Ideal) x0 x1 x2 x3 e
      = Cert.Zbl.cutoff (x0 e) (Cert.Zbl.rAt x1 x3 (Cert.Zbl.endI x2 e) + Cert.Zbl.rAt x1 x3 (Cert.Zbl.endJ x2 e)) := by
  have h66 : val_main_v66 (F := Ideal) x1 x2 x3 e
      = Cert.Zbl.rAt x1 x3 (Cert.Zbl.endI x2 e) + Cert.Zbl.rAt x1 x3 (Cert.Zbl.endJ x2 e) := by
    rw [val_main_v66_apply, rI, rJ]; rfl
  rw [val_main_v76_apply, val_main_v67_apply, val_main_v75_apply, val_main_v74_apply, val_main_cst_19_apply,
    val_main_v73_apply, val_main_v72_apply, val_main_cst_18_apply, val_main_v71_apply, val_main_v70_apply,
    val_main_v69_apply, val_main_v68_apply, val_main_cst_17_apply, val_main_call0_v1_apply, val_main_call0_v0_apply,
    val_main_cst_20_apply, h66]
  rfl

/-- The energy array the reference scatters is `Zbl.edge` of the arguments. -/
theorem energy_eq (x0 : FVec Ideal S16000000 .f32) (x1 : FVec Ideal S97 .f32) (x2 : IVec S2x16000000 32) (x3 : IVec S1000000 32) :
    val_main_v83 (F := Ideal) x0 x1 x2 x3 = Cert.Zbl.edge x0 x1 x2 x3 := by
  funext e
  rw [val_main_v83_apply, mask, val_main_v82_apply, val_main_v81_apply, val_main_v80_apply, val_main_v79_apply,
    val_main_v77_apply, val_main_v78_apply, val_main_cst_21_apply, f, scr, cut, zI, zJ,
    val_main_call1_v1_apply, val_main_call1_v0_apply, val_main_cst_22_apply]
  rfl

/-- The system ids the reference scatters by are those of the first ends. -/
theorem sys_eq (x2 : IVec S2x16000000 32) (x4 : IVec S1000000 32) :
    val_main_v90 (F := Ideal) x2 x4 = Cert.Zbl.sys x2 x4 := by
  funext e
  have hw : val_main_v88 (F := Ideal) x2 e = Cert.Zbl.wrap 1000000#32 (Cert.Zbl.endI x2 e) := by
    rw [← v1_read]
    exact Cert.Zbl.wrap_read 1000000#32 bcast_S_S16000000 (val_main_v1 (F := Ideal) x2) e
  have h := Cert.Zbl.take_read (N := 1000000) (n := 16000000) (by decide)
    gather_S1000000_S16000000x1_S16000000_n_0_n_n_0_1_1 rfl rfl rfl rfl bcast_S16000000_S16000000x1_0
    x4 (val_main_v88 (F := Ideal) x2) e
  rw [hw] at h
  exact h

/-- The reference's result: the per-system sums of `Zbl.edge`. -/
theorem result_eq (m : (ℓ : Loc nD τ sig) → Buf (Elt Ideal) ℓ) (c : Dev nD) :
    Cert.ReferenceIdeal.Value.res_main_v94 (F := Ideal) m c
      = Cert.Zbl.perSystem scatter_S10000_S16000000x1_S16000000_n_0_0_1 bcast_S_S10000 bcast_S16000000_S16000000x1_0
          shapeCasts_S10000_S10000x1
          (Cert.Zbl.sys (m ((c.tc : Thread nD τ).loc main_arg2)) (m ((c.tc : Thread nD τ).loc main_arg4)))
          (Cert.Zbl.edge (m ((c.tc : Thread nD τ).loc main_arg0)) (m ((c.tc : Thread nD τ).loc main_arg1))
            (m ((c.tc : Thread nD τ).loc main_arg2)) (m ((c.tc : Thread nD τ).loc main_arg3))) := by
  rw [Read.val_main_v94_eq]
  unfold val_main_v94 val_main_v93 val_main_v92 val_main_v91 val_main_cst_25 Cert.Zbl.perSystem
  rw [energy_eq, sys_eq]

end Cert.ReferenceIdeal.RefValue

end
-- ==== Proof.lean ====
/-
  The ZBL pair potential summed per system: a blocked kernel against its plain reference, over the extended reals.

  Both programs reach, for every edge of the pair list, the two atoms' numbers and radii (positions wrapped and
  clamped into the tables), form the screened Coulomb energy with a cosine cut-off, and add it into the system of
  the edge's first atom. They differ in two ways. The kernel gathers through a two-column per-atom table and lays
  the per-edge arrays out as [125000, 128], computing block by block (25 blocks of 5000 rows) before flattening
  again; that changes no value. And the kernel folds the test `i < j` into the charge product and divides by the
  distance LAST, where the reference divides first and drops the edge afterwards: off a zero distance the two agree
  (the product of extended reals is associative, zero absorbs, and `0 / d = 0`), while at `d = 0` the folded form
  is `0 / 0`. The precondition asks the distances to be positive, so the two energy arrays are one and the same
  scatter-add gives equal results.

  The three frames are the generated frame certificates (the reference's is its generated run with the result
  dropped); the idealization rewrote nothing, so `preserves` is `True`.
-/
import proofs.«405888_j79860621902322_3_alg».proof.Defs
import proofs.«405888_j79860621902322_3_alg».proof.Proof.Gen.Kernel
import proofs.«405888_j79860621902322_3_alg».proof.Proof.Gen.Kernel.Skeleton
import proofs.«405888_j79860621902322_3_alg».proof.Proof.Gen.Kernel.Launch
import proofs.«405888_j79860621902322_3_alg».proof.Proof.Gen.Kernel.Points
import proofs.«405888_j79860621902322_3_alg».proof.Proof.Gen.Kernel.Frame
import proofs.«405888_j79860621902322_3_alg».proof.Proof.Gen.KernelIdeal
import proofs.«405888_j79860621902322_3_alg».proof.Proof.Gen.KernelIdeal.Skeleton
import proofs.«405888_j79860621902322_3_alg».proof.Proof.Gen.KernelIdeal.Launch
import proofs.«405888_j79860621902322_3_alg».proof.Proof.Gen.KernelIdeal.Points
import proofs.«405888_j79860621902322_3_alg».proof.Proof.Gen.KernelIdeal.Frame
import proofs.«405888_j79860621902322_3_alg».proof.Proof.Gen.ReferenceIdeal
import proofs.«405888_j79860621902322_3_alg».proof.Proof.Gen.ReferenceIdeal.Run
import proofs.«405888_j79860621902322_3_alg».proof.Proof.Gen.ReferenceIdeal.Read
import proofs.«405888_j79860621902322_3_alg».proof.Proof.Gen.Pre_finite_inputs
import proofs.«405888_j79860621902322_3_alg».proof.Proof.PreDecode
import proofs.«405888_j79860621902322_3_alg».proof.Proof.KernelRun
import proofs.«405888_j79860621902322_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the per-system sums of `Zbl.edge` of the (agreeing) arguments: the kernel because under
    the precondition no distance is zero, so its folded energies are the reference's. -/
theorem algebraic : Cert.algebraic_KernelIdeal_ReferenceIdeal := by
  intro m ρ m' ρ' hpre hagree
  have h0 : ∀ c e, Cert.KernelIdeal.HostValue.dist m c e ≠ 0 := fun c =>
    Cert.Pre_finite_inputs.Decode.dist_ne_zero _ _ _ _ _ (hpre c)
  refine ⟨fun c => Cert.KernelIdeal.RunValue.result m c, Cert.KernelIdeal.RunValue.run m ρ h0, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
